-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S4096x1024 : Shape := ⟨2, ![4096, 1024]⟩
abbrev S4096 : Shape := ⟨1, ![4096]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S8x2048x1024 .f32) (main_arg1 : FVec F S4096x1024 .f32) (main_arg2 : FVec F S4096 .f32) (main_arg3 : FVec F S4096x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Kernel.lean ====
abbrev S8x2048x1024 : Shape := ⟨3, ![8, 2048, 1024]⟩
abbrev S4096x1024 : Shape := ⟨2, ![4096, 1024]⟩
abbrev S4096 : Shape := ⟨1, ![4096]⟩
abbrev S16384x1024 : Shape := ⟨2, ![16384, 1024]⟩
abbrev S1x4096 : Shape := ⟨2, ![1, 4096]⟩
abbrev S16384x4096 : Shape := ⟨2, ![16384, 4096]⟩
abbrev S1024x1024 : Shape := ⟨2, ![1024, 1024]⟩
abbrev S1x1024 : Shape := ⟨2, ![1, 1024]⟩
abbrev S8x2048x4096 : Shape := ⟨3, ![8, 2048, 4096]⟩

abbrev nBuf : Space → Nat
  | .hbm => 8
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S4096x1024, .f32⟩
  | .hbm, ⟨2, _⟩ => ⟨S4096, .f32⟩
  | .hbm, ⟨3, _⟩ => ⟨S4096x1024, .f32⟩
  | .hbm, ⟨4, _⟩ => ⟨S16384x1024, .f32⟩
  | .hbm, ⟨5, _⟩ => ⟨S1x4096, .f32⟩
  | .hbm, ⟨6, _⟩ => ⟨S16384x4096, .f32⟩
  | .hbm, ⟨7, _⟩ => ⟨S8x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8x2048x1024_S16384x1024 : S8x2048x1024.ShapeCasts S16384x1024
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S8x2048x4096 : S16384x4096.ShapeCasts S8x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .f32 = 32 ∨ (Rect.block (s := S4096x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x4096.size a
  hwx0_4 : ∀ i : grid0.Coords, EltTy.bits .f32 = 32 ∨ (Rect.block (s := S16384x4096) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S4096x1024 : Shape := ⟨2, ![4096, 1024]⟩
abbrev S4096 : Shape := ⟨1, ![4096]⟩
abbrev S8x2048x4096 : Shape := ⟨3, ![8, 2048, 4096]⟩
abbrev S1x1x4096 : Shape := ⟨3, ![1, 1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4096x1024, .f32⟩
  | .hbm, ⟨2, _⟩ => ⟨S4096, .f32⟩
  | .hbm, ⟨3, _⟩ => ⟨S4096x1024, .f32⟩
  | .hbm, ⟨4, _⟩ => ⟨S4096x1024, .f32⟩
  | .hbm, ⟨5, _⟩ => ⟨S8x2048x4096, .f32⟩
  | .hbm, ⟨6, _⟩ => ⟨S1x1x4096, .f32⟩
  | .hbm, ⟨7, _⟩ => ⟨S8x2048x4096, .f32⟩
  | .hbm, ⟨8, _⟩ => ⟨S8x2048x4096, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x1024_S4096x1024_S8x2048x4096_2_1_01_0_n_n_wf : DotDims.WF S8x2048x1024 S4096x1024 S8x2048x4096 [2] [1] [0, 1] [0] [] []

variable [Facts₀]

def dot_S8x2048x1024_S4096x1024_S8x2048x4096_2_1_01_0_n_n : DotDims S8x2048x1024 S4096x1024 S8x2048x4096 where
  lhsContracting := [2]
  rhsContracting := [1]
  lhsNonContracting := [0, 1]
  rhsNonContracting := [0]
  lhsBatch := []
  rhsBatch := []
  wf := dot_S8x2048x1024_S4096x1024_S8x2048x4096_2_1_01_0_n_n_wf

class Facts : Prop extends Facts₀ where

variable [Facts]
-- ==== Proof.Body.lean ====
/-
  What the kernel body stores, read at ONE entry of its 1024 × 1024 output block.

  At a grid point the body loads a block W of the weight, the matching block M of the mask, a block X of the
  merged x, and a 1 × 1024 piece B of the bias row. It multiplies W and M entry by entry, narrows both that
  product and X to bfloat16 (at the extended reals a change of format is the identity), contracts X's column
  axis against the product's column axis into a zero accumulator, and adds B broadcast down the rows. So entry
  (p, q) of what it stores is

      (Σ_k X[p, k] · (W[q, k] · M[q, k])) + B[0, q],        k < 1024:

  row p of the x block against MASKED WEIGHT ROW q, plus bias entry q. The contraction pairs the SECOND axis of
  both operands (the weight is stored output-major), which is why q indexes a row of W and not a column.
-/
import proofs.«152041_j25769803815_1_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Body

open Cert.KernelIdeal Cert.KernelIdeal.Gen Idealize.ShloMosaic Idealize.ShloMosaic.ValueIdx

/-! ## The contraction's operand indices, axis by axis

Output entry i = (p, q) and contraction position k: the left operand is read at (p, k), the right at (q, k). -/

theorem lhs_axis0 (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_axis1 (i : S1024x1024.Idx) (k : dot_S1024x1024_S1024x1024_S1024x1024_1_1_0_0_n_n.contr.Idx) :
    (dot_S1024x1024_S1024x1024_S1024x1024_1_1_0_0_n_n.lhsIdx i k 1).val = (k ⟨0, by decide⟩).val :=
  dot_S1024x1024_S1024x1024_S1024x1024_1_1_0_0_n_n.lhsIdx_val_of_single rfl i k
theorem rhs_axis0 (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_axis1 (i : S1024x1024.Idx) (k : dot_S1024x1024_S1024x1024_S1024x1024_1_1_0_0_n_n.contr.Idx) :
    (dot_S1024x1024_S1024x1024_S1024x1024_1_1_0_0_n_n.rhsIdx i k 1).val = (k ⟨0, by decide⟩).val :=
  dot_S1024x1024_S1024x1024_S1024x1024_1_1_0_0_n_n.rhsIdx_val_of_single rfl i k

/-- The body's matrix product into a zero accumulator, at entry (p, q): row p of the left operand against ROW q
    of the right one. -/
theorem matmul_at (a b : FVec Ideal S1024x1024 .bf16) (p q : Fin 1024) :
    matmul (F := Ideal) dot_S1024x1024_S1024x1024_S1024x1024_1_1_0_0_n_n none a b (constant (F := Ideal) S1024x1024 .f32 0x00000000#32) (ix2 p q)
      = ∑ k : Fin 1024, a (ix2 p k) * b (ix2 q k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun d => Fin.ext (by
    match d with
    | ⟨0, _⟩ => exact lhs_axis0 _ _
    | ⟨1, _⟩ => exact (lhs_axis1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun d => Fin.ext (by
    match d with
    | ⟨0, _⟩ => exact rhs_axis0 _ _
    | ⟨1, _⟩ => exact (rhs_axis1 _ _).trans hk)
  rw [el, er]

/-- The bias piece broadcast down the rows, at entry (p, q): its entry (0, q). -/
theorem bias_at (v : FVec Ideal S1x1024 .f32) (p q : Fin 1024) :
    broadcastTo S1024x1024 (shapeCast S1x1024 v shapeCasts_S1x1024_S1x1024) broadcasts_S1x1024_S1024x1024 (ix2 p q) = v (ix2 (0 : Fin 1) q) := by
  rw [shapeCast_self]
  refine broadcastTo_apply v broadcasts_S1x1024_S1024x1024 (ix2 p q) (ix2 (0 : Fin 1) q) fun d => ?_
  match d with
  | ⟨0, _⟩ => show (0 : Nat) = if (1 : Nat) = 1 then 0 else p.val; rw [if_pos rfl]
  | ⟨1, _⟩ => show q.val = if (1024 : Nat) = 1 then 0 else q.val; rw [if_neg (by decide)]

/-- THE STORED VALUE AT (p, q): the x block's row p against the masked weight block's row q, plus the bias
    piece's entry q. -/
theorem stored_at (v0 v1 v4 : Vec Ideal S1024x1024 .f32) (v8 : Vec Ideal S1x1024 .f32) (p q : Fin 1024) :
    k0_pay1 (F := Ideal) v0 v1 v4 v8 (ix2 p q)
      = (∑ k : Fin 1024, v4 (ix2 p k) * (v0 (ix2 q k) * v1 (ix2 q k))) + v8 (ix2 (0 : Fin 1) q) := by
  unfold k0_pay1
  rw [addf_apply, matmul_at, bias_at, shapeCast_self]
  rfl

end Cert.KernelIdeal.Body

end
-- ==== Proof.MaskedLinear.lean ====
/-
  The masked linear layer as ONE function of its four arrays, over the extended reals:

      y[b, s, o] = (Σ_k x[b, s, k] · (w[o, k] · mask[o, k])) + bias[o],      k < 1024.

  Two spellings of it. `layer` is over the arrays as the programs take them: x of shape [8, 2048, 1024], the
  result of shape [8, 2048, 4096]. `layerRows` is the same sum with the batch and sequence axes merged into one
  row axis r = 2048·b + s (x as [16384, 1024], the bias as a [1, 4096] row, the result as [16384, 4096]): what a
  program computes that first reshapes x and the bias, then works row by row, then reshapes the result back.
  `layer_of_rows` says the two agree: a reshape keeps row-major positions, and the row-major position of
  (b, s, k) in [8, 2048, 1024] is that of (2048·b + s, k) in [16384, 1024]; likewise for the result and the bias.
  No property of the extended reals is used here beyond their being the entries: the sum is the same sum, term
  by term.
-/
import Idealize.ShloMosaic.PureOps.Ideal
import Idealize.ShloMosaic.Lib.ValueIdx
import Idealize.ShloMosaic.Lib.Pipeline.Value

noncomputable section

open scoped BigOperators

namespace Cert.MaskedLinear

open Idealize.ShloMosaic Idealize.ShloMosaic.ValueIdx

abbrev SX : Shape := ⟨3, ![8, 2048, 1024]⟩
abbrev SW : Shape := ⟨2, ![4096, 1024]⟩
abbrev SB : Shape := ⟨1, ![4096]⟩
abbrev SY : Shape := ⟨3, ![8, 2048, 4096]⟩
abbrev SXr : Shape := ⟨2, ![16384, 1024]⟩
abbrev SBr : Shape := ⟨2, ![1, 4096]⟩
abbrev SYr : Shape := ⟨2, ![16384, 4096]⟩

/-- The layer: entry (b, s, o) is the inner product of x's row (b, s) with the masked weight row o, plus bias o. -/
def layer (x : SX.Idx → EReal) (w : SW.Idx → EReal) (bias : SB.Idx → EReal) (mask : SW.Idx → EReal) : SY.Idx → EReal :=
  fun i => (∑ k : Fin 1024, x (ix3 (i 0) (i 1) k) * (w (ix2 (i 2) k) * mask (ix2 (i 2) k))) + bias (ix1 (i 2))

/-- The layer over merged rows: entry (r, o) is the inner product of row r of x with the masked weight row o,
    plus entry o of the bias row. -/
def layerRows (x : SXr.Idx → EReal) (w : SW.Idx → EReal) (bias : SBr.Idx → EReal) (mask : SW.Idx → EReal) : SYr.Idx → EReal :=
  fun i => (∑ k : Fin 1024, x (ix2 (i 0) k) * (w (ix2 (i 1) k) * mask (ix2 (i 1) k))) + bias (ix2 (0 : Fin 1) (i 1))

/-- Row 2048·b + s of the merged x is row (b, s) of x. -/
theorem rows_x (x : SX.Idx → EReal) (hx : SX.ShapeCasts SXr) (b : Fin 8) (s : Fin 2048) (k : Fin 1024) :
    shapeCast SXr x hx (ix2 (⟨2048 * b.val + s.val, by have := b.isLt; have := s.isLt; omega⟩ : Fin 16384) k) = x (ix3 b s k) := by
  refine shapeCast_apply x hx _ (ix3 b s k) ?_
  rw [Shape.rowMajor_val_three, Shape.rowMajor_val_two]
  show (b.val * 2048 + s.val) * 1024 + k.val = (2048 * b.val + s.val) * 1024 + k.val
  omega

/-- Entry (0, o) of the bias row is entry o of the bias. -/
theorem rows_bias (bias : SB.Idx → EReal) (hb : SB.ShapeCasts SBr) (o : Fin 4096) :
    shapeCast SBr bias hb (ix2 (0 : Fin 1) o) = bias (ix1 o) := by
  refine shapeCast_apply bias hb _ (ix1 o) ?_
  rw [Shape.rowMajor_val_one, Shape.rowMajor_val_two]
  show o.val = (0 : Nat) * 4096 + o.val
  omega

/-- Merging the batch and sequence axes commutes with the layer: reshape x and the bias, apply the layer row by
    row, reshape the result back — that is the layer. -/
theorem layer_of_rows (x : SX.Idx → EReal) (w : SW.Idx → EReal) (bias : SB.Idx → EReal) (mask : SW.Idx → EReal)
    (hx : SX.ShapeCasts SXr) (hb : SB.ShapeCasts SBr) (hy : SYr.ShapeCasts SY) :
    shapeCast SY (layerRows (shapeCast SXr x hx) w (shapeCast SBr bias hb) mask) hy = layer x w bias mask := by
  funext i
  obtain ⟨b, s, o, rfl⟩ : ∃ (b : Fin 8) (s : Fin 2048) (o : Fin 4096), i = ix3 b s o := ⟨i 0, i 1, i 2, eq_ix3 i⟩
  have hr : 2048 * b.val + s.val < 16384 := by have := b.isLt; have := s.isLt; omega
  rw [shapeCast_apply _ hy (ix3 b s o) (ix2 (⟨2048 * b.val + s.val, hr⟩ : Fin 16384) o) (by
    rw [Shape.rowMajor_val_three, Shape.rowMajor_val_two]
    show (2048 * b.val + s.val) * 4096 + o.val = (b.val * 2048 + s.val) * 4096 + o.val
    omega)]
  show (∑ k : Fin 1024, shapeCast SXr x hx (ix2 (⟨2048 * b.val + s.val, hr⟩ : Fin 16384) k) * (w (ix2 o k) * mask (ix2 o k)))
      + shapeCast SBr bias hb (ix2 (0 : Fin 1) o)
    = (∑ k : Fin 1024, x (ix3 b s k) * (w (ix2 o k) * mask (ix2 o k))) + bias (ix1 o)
  rw [rows_bias]
  exact congrArg (· + bias (ix1 o)) (Finset.sum_congr rfl fun k _ => by rw [rows_x])

end Cert.MaskedLinear

end
-- ==== Proof.Region.lean ====
/-
  What the one kernel region leaves in its output array, at the extended reals.

  The grid has 4 × 16 points (j, i): j picks a block of 1024 output features, i a block of 1024 merged rows.
  At (j, i) the body reads block i of the merged x, block j of the weight and of the mask, piece j of the bias row,
  and writes block (i, j) of the output. By Body.lean entry (p, q) of what it writes is row p of the x block against
  masked weight row q of the weight block, plus bias entry q of the piece: read where the blocks sit in their
  arrays, that is entry (1024·i + p, 1024·j + q) of the row-form layer (MaskedLinear.lean's `layerRows`) of the
  four arrays as the region finds them. So every block written back is the matching block of ONE whole-array
  function (`written_eq`), the 64 blocks tile the 16384 × 4096 output (`covered`: entry (r, o) is in the block of
  the point with i = r / 1024, j = o / 1024), and the output array ends holding that function (`output_eq`).
-/
import proofs.«152041_j25769803815_1_alg».proof.Proof.Gen.KernelIdeal.Frame
import proofs.«152041_j25769803815_1_alg».proof.Proof.Body
import proofs.«152041_j25769803815_1_alg».proof.Proof.MaskedLinear
import Idealize.ShloMosaic.Lib.Pipeline.Value

set_option maxRecDepth 16384

noncomputable section

open scoped BigOperators

namespace Cert.KernelIdeal.Region

open Cert.KernelIdeal Cert.KernelIdeal.Gen Idealize.ShloMosaic Idealize.ShloMosaic.TcCoe Idealize.ShloMosaic.ValueIdx
open Idealize.SL.Sem
open Idealize.ShloMosaic.Pipeline (Dat)
open Cert.MaskedLinear (layerRows)

variable (m : (ℓ : Loc nD τ sig) → Buf (Elt Ideal) ℓ)

theorem origin : (![0, 0] : Fin 2 → Nat) = fun _ => 0 := funext fun a => by fin_cases a <;> rfl

/-! ## One block, over plain arrays -/

/-- Entry y of the stored block is entry i of the row-form layer, when the loaded blocks are the blocks (bi, ·) of
    x and (bj, ·) of the weight and the mask and piece bj of the bias row, and i sits at y inside block (bi, bj). -/
theorem block_entry (X : FVec Ideal S16384x1024 .f32) (W Mk : FVec Ideal S4096x1024 .f32) (B : FVec Ideal S1x4096 .f32)
    (v0 v1 v4 : Vec Ideal S1024x1024 .f32) (v8 : Vec Ideal S1x1024 .f32) (bi bj : Nat) (hbi : bi ≤ 15) (hbj : bj ≤ 3)
    (h0 : ∀ (q k : Fin 1024), v0 (ix2 q k) = W (ix2 (⟨bj * 1024 + q.val, by have := q.isLt; omega⟩ : Fin 4096) k))
    (h1 : ∀ (q k : Fin 1024), v1 (ix2 q k) = Mk (ix2 (⟨bj * 1024 + q.val, by have := q.isLt; omega⟩ : Fin 4096) k))
    (h4 : ∀ (p k : Fin 1024), v4 (ix2 p k) = X (ix2 (⟨bi * 1024 + p.val, by have := p.isLt; omega⟩ : Fin 16384) k))
    (h8 : ∀ (q : Fin 1024), v8 (ix2 (0 : Fin 1) q) = B (ix2 (0 : Fin 1) (⟨bj * 1024 + q.val, by have := q.isLt; omega⟩ : Fin 4096)))
    (y : S1024x1024.Idx) (i : S16384x4096.Idx)
    (hi0 : (i 0).val = bi * 1024 + (y 0).val) (hi1 : (i 1).val = bj * 1024 + (y 1).val) :
    k0_pay1 (F := Ideal) v0 v1 v4 v8 y = layerRows X W B Mk i := by
  obtain ⟨p, q, rfl⟩ : ∃ (p q : Fin 1024), y = ix2 p q := ⟨y 0, y 1, eq_ix2 y⟩
  have hpb : bi * 1024 + p.val < 16384 := by have := p.isLt; omega
  have hqb : bj * 1024 + q.val < 4096 := by have := q.isLt; omega
  have hi : i = ix2 (⟨bi * 1024 + p.val, hpb⟩ : Fin 16384) (⟨bj * 1024 + q.val, hqb⟩ : Fin 4096) := by
    funext a
    match a with
    | ⟨0, _⟩ => exact Fin.ext hi0
    | ⟨1, _⟩ => exact Fin.ext hi1
  rw [hi, Body.stored_at]
  show _ = (∑ k : Fin 1024, X (ix2 _ k) * (W (ix2 _ k) * Mk (ix2 _ k))) + B (ix2 (0 : Fin 1) _)
  rw [h8]
  exact congrArg (· + _) (Finset.sum_congr rfl fun k _ => by rw [h4, h0, h1])

/-! ## The printed index maps, over the grid -/

/-- Where each window's block sits at a point, against the output's block (i, j): x at (i, 0), the weight and the
    mask at (j, 0), the bias row at (0, j); and the output's block indices stay inside 16 × 4. -/
theorem index_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (1 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 15 ∧ win0_4.index t (1 : Fin 2) ≤ 3 :=
  (by decide +kernel : ∀ t : Fin grid0.N, _)

/-- Every block (i, j) of the output is some point's. -/
theorem index_onto : ∀ (q0 : Fin 16) (q1 : Fin 4), ∃ t : Fin cfg0.N, win0_4.index t = ![q0.val, q1.val] :=
  (by decide +kernel : ∀ (q0 : Fin 16) (q1 : Fin 4), ∃ t : Fin grid0.N, win0_4.index t = ![q0.val, q1.val])

/-! ## What a point writes back -/

/-- Point t writes back block t of the row-form layer of the arrays as the region finds them. -/
theorem written_eq (c : Dev nD) (t : Fin cfg0.N) :
    (dats m 0 c).flushed 4 t = ((cfg0.win 4).blk t).view.read (Elt Ideal)
      (layerRows (V m c main_v0) (V m c main_arg1) (V m c main_v1) (V m c main_arg3)) := by
  show (cfg0.win 4).cut (grid0.coords t) ((dats m 0 c).after 4 t) = _
  rw [after0_4]
  unfold out0_4
  rw [View.canon_unit_zero origin]
  simp only [View.ld_unit_zero (S := S1024x1024) origin, View.ld_unit_zero (S := S1x1024) origin]
  obtain ⟨e00, e01, e10, e11, e20, e21, e30, e31, b0, b1⟩ := index_facts t
  funext y
  refine block_entry (V m c main_v0) (V m c main_arg1) (V m c main_arg3) (V m c main_v1)
    (iblk m c 1 t) (iblk m c 2 t) (iblk m c 0 t) (iblk m c 3 t) (win0_4.index t (0 : Fin 2)) (win0_4.index t (1 : Fin 2)) b0 b1
    ?_ ?_ ?_ ?_ y (((cfg0.win 4).blk t).view.emb y) ?_ ?_
  · intro q k
    show V m c main_arg1 (((cfg0.win 1).blk t).view.emb (ix2 q k)) = V m c main_arg1 _
    refine congrArg (V m c main_arg1) (funext fun a => Fin.ext ?_)
    match a with
    | ⟨0, _⟩ => show win0_1.index t (0 : Fin 2) * 1024 + 1 * q.val = win0_4.index t (1 : Fin 2) * 1024 + q.val; omega
    | ⟨1, _⟩ => show win0_1.index t (1 : Fin 2) * 1024 + 1 * k.val = k.val; omega
  · intro q k
    show V m c main_arg3 (((cfg0.win 2).blk t).view.emb (ix2 q k)) = V m c main_arg3 _
    refine congrArg (V m c main_arg3) (funext fun a => Fin.ext ?_)
    match a with
    | ⟨0, _⟩ => show win0_2.index t (0 : Fin 2) * 1024 + 1 * q.val = win0_4.index t (1 : Fin 2) * 1024 + q.val; omega
    | ⟨1, _⟩ => show win0_2.index t (1 : Fin 2) * 1024 + 1 * k.val = k.val; omega
  · intro p k
    show V m c main_v0 (((cfg0.win 0).blk t).view.emb (ix2 p k)) = V m c main_v0 _
    refine congrArg (V m c main_v0) (funext fun a => Fin.ext ?_)
    match a with
    | ⟨0, _⟩ => show win0_0.index t (0 : Fin 2) * 1024 + 1 * p.val = win0_4.index t (0 : Fin 2) * 1024 + p.val; omega
    | ⟨1, _⟩ => show win0_0.index t (1 : Fin 2) * 1024 + 1 * k.val = k.val; omega
  · intro q
    show V m c main_v1 (((cfg0.win 3).blk t).view.emb (ix2 (0 : Fin 1) q)) = V m c main_v1 _
    refine congrArg (V m c main_v1) (funext fun a => Fin.ext ?_)
    match a with
    | ⟨0, _⟩ => show win0_3.index t (0 : Fin 2) * 1 + 1 * 0 = 0; omega
    | ⟨1, _⟩ => show win0_3.index t (1 : Fin 2) * 1024 + 1 * q.val = win0_4.index t (1 : Fin 2) * 1024 + q.val; omega
  · show win0_4.index t (0 : Fin 2) * 1024 + 1 * (y 0).val = win0_4.index t (0 : Fin 2) * 1024 + (y 0).val; omega
  · show win0_4.index t (1 : Fin 2) * 1024 + 1 * (y 1).val = win0_4.index t (1 : Fin 2) * 1024 + (y 1).val; omega

/-! ## The blocks tile the output -/

/-- An entry of the output is in point t's block iff each coordinate is in the block's range on its axis. -/
theorem mem_block (t : Fin cfg0.N) (i : S16384x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v2).slice (win0_4.rect t)).set ↔ _
  rw [View.set_slice_whole, Rect.mem_set_unit]
  exact Iff.rfl

/-- Every entry (r, o) of the output is in a written block: that of the point with i = r / 1024, j = o / 1024. -/
theorem covered (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  obtain ⟨t, ht⟩ := index_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_block]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- THE OUTPUT ARRAY after the region: the row-form layer of the arrays as the region finds them. -/
theorem output_eq (c : Dev nD) :
    (dats m 0 c).arrAt 4 cfg0.N = layerRows (V m c main_v0) (V m c main_arg1) (V m c main_v1) (V m c main_arg3) :=
  (dats m 0 c).arrAt_eq_of_cover 4 _ (fun t _ => written_eq m c t) covered

end Cert.KernelIdeal.Region

end
-- ==== Proof.KernelRun.lean ====
/-
  The idealized kernel's whole run: its result is the layer of its four arguments.

  Around the one region the program reshapes. Before it, x is merged to [16384, 1024] rows and the bias is laid
  out as a [1, 4096] row (`x_merged`, `bias_row`); the weight and the mask go in as they are. The region leaves the
  row-form layer of those in its [16384, 4096] output (Region.lean). After it, that array is reshaped to
  [8, 2048, 4096] (`tail_eq`). Merging rows, applying the layer row by row and splitting the rows again is the
  layer itself (MaskedLinear.lean's `layer_of_rows`), so the result buffer ends at `layer x w bias mask`
  (`result_eq`), and the four argument arrays end as they began (`run`).
-/
import proofs.«152041_j25769803815_1_alg».proof.Proof.Gen.KernelIdeal.Frame
import proofs.«152041_j25769803815_1_alg».proof.Proof.Region
import proofs.«152041_j25769803815_1_alg».proof.Proof.MaskedLinear
import Idealize.ShloMosaic.Lib.StableHlo.Run
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.ShloMosaic.StableHlo
open Idealize.SL.Sem
open Cert.MaskedLinear (layer layerRows layer_of_rows)

variable (m : (ℓ : Loc nD τ sig) → Buf (Elt Ideal) ℓ) (ρ : Dev nD → PrngReg)

/-- The region finds x with its batch and sequence axes merged. -/
theorem x_merged (c : Dev nD) :
    (V m c main_v0 : S16384x1024.Idx → EReal) = shapeCast S16384x1024 (m ((c : Thread nD τ).loc main_arg0)) shapeCasts_S8x2048x1024_S16384x1024 := by
  show StableHlo.after hostOps0 (fun b => m (c, b)) (Proc.devRef .tc main_v0) = _
  after_results
  rfl

/-- The region finds the bias as a one-row matrix. -/
theorem bias_row (c : Dev nD) :
    (V m c main_v1 : S1x4096.Idx → EReal) = shapeCast S1x4096 (m ((c : Thread nD τ).loc main_arg2)) shapeCasts_S4096_S1x4096 := by
  show StableHlo.after hostOps0 (fun b => m (c, b)) (Proc.devRef .tc main_v1) = _
  after_results
  rfl

/-- After the region the result buffer is the region's output array with its rows split back into batch and
    sequence. -/
theorem tail_eq (c : Dev nD) :
    (Pipeline.afterTail₀ cfgs (dats m) 0 (V0 m) [hostOps1] c main_v3 : S8x2048x4096.Idx → EReal)
      = shapeCast S8x2048x4096 ((dats m 0 c).arrAt 4 cfg0.N) shapeCasts_S16384x4096_S8x2048x4096 := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = (dats m 0 c).arrAt 4 cfg0.N := Pipeline.withArrays_arr spec0 launch0.win.arr_inj c _ _ 4
  rw [hw]
  rfl

/-- THE RESULT: the layer of the four arguments as launched. -/
theorem result_eq (c : Dev nD) :
    (Pipeline.afterTail₀ cfgs (dats m) 0 (V0 m) [hostOps1] c main_v3 : S8x2048x4096.Idx → EReal)
      = layer (m ((c : Thread nD τ).loc main_arg0)) (m ((c : Thread nD τ).loc main_arg1)) (m ((c : Thread nD τ).loc main_arg2)) (m ((c : Thread nD τ).loc main_arg3)) := by
  rw [tail_eq, Region.output_eq, x_merged, bias_row, V_main_arg1, V_main_arg3]
  exact layer_of_rows _ _ _ _ _ _ _

/-- The run: every weakly fair execution terminates with the result buffer at the layer of the arguments and the
    arguments unchanged. -/
theorem run : θ_run defs (onTc (τ := τ) (main (F := Ideal))) ⟨m, fun _ => 0, ρ⟩ (fun r => ∀ c : Dev nD,
      r.2.mem ((c.tc : Thread nD τ).loc main_v3)
        = layer (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c)))⟩)
    (run_main m ρ)

end Cert.KernelIdeal.Whole

end
-- ==== Proof.Reference.lean ====
/-
  The reference's result is the layer.

  The reference multiplies the mask by the weight entry by entry, contracts x's last axis against the product's
  last axis, and adds the bias broadcast over batch and sequence. Read at entry (b, s, o) through the read-back
  lemmas of its five operations that is

      (Σ_k x[b, s, k] · (mask[o, k] · w[o, k])) + bias[o].

  MaskedLinear.lean's `layer` has the product the other way round, w[o, k] · mask[o, k], as the kernel computes
  it. Multiplication of extended reals is commutative (infinities and zero included: it is a commutative monoid
  with zero), so the two sums agree term by term. No finiteness of the inputs is needed.
-/
import proofs.«152041_j25769803815_1_alg».proof.Proof.Gen.ReferenceIdeal.Read
import proofs.«152041_j25769803815_1_alg».proof.Proof.MaskedLinear

noncomputable section

open scoped BigOperators

namespace Cert.ReferenceIdeal.Layer

open Cert.ReferenceIdeal Cert.ReferenceIdeal.Read Idealize.ShloMosaic Idealize.ShloMosaic.ValueIdx

/-- The reference's last stage, as a function of the four argument arrays, is the layer. -/
theorem reference_eq (x0 : FVec Ideal S8x2048x1024 .f32) (x1 : FVec Ideal S4096x1024 .f32) (x2 : FVec Ideal S4096 .f32)
    (x3 : FVec Ideal S4096x1024 .f32) :
    val_main_v4 (F := Ideal) x0 x1 x2 x3 = Cert.MaskedLinear.layer x0 x1 x2 x3 := by
  funext i
  obtain ⟨b, s, o, rfl⟩ : ∃ (b : Fin 8) (s : Fin 2048) (o : Fin 4096), i = ix3 b s o := ⟨i 0, i 1, i 2, eq_ix3 i⟩
  have el : ∀ k : Fin 1024, lidx_main_v1 (ix3 b s o) k = ix3 b s k := fun k => funext fun a => Fin.ext (by
    match a with | ⟨0, _⟩ => rfl | ⟨1, _⟩ => rfl | ⟨2, _⟩ => rfl)
  have er : ∀ k : Fin 1024, ridx_main_v1 (ix3 b s o) k = ix2 o k := fun k => funext fun a => Fin.ext (by
    match a with | ⟨0, _⟩ => rfl | ⟨1, _⟩ => rfl)
  have eb : idx_main_v2 (idx_main_v3 (ix3 b s o)) = ix1 o := funext fun a => Fin.ext (by
    match a with | ⟨0, _⟩ => rfl)
  rw [val_main_v4_apply, val_main_v1_apply, val_main_v3_apply, val_main_v2_apply, eb]
  simp only [el, er, val_main_v0_apply]
  show (∑ k : Fin 1024, x0 (ix3 b s k) * (x3 (ix2 o k) * x1 (ix2 o k))) + x2 (ix1 o)
    = (∑ k : Fin 1024, x0 (ix3 b s k) * (x1 (ix2 o k) * x3 (ix2 o k))) + x2 (ix1 o)
  exact congrArg (· + x2 (ix1 o)) (Finset.sum_congr rfl fun k _ => by rw [mul_comm (x3 (ix2 o k)) (x1 (ix2 o k))])

end Cert.ReferenceIdeal.Layer

end
-- ==== Proof.lean ====
/-
  A masked ("butterfly") linear layer: y = x · (mask ∘ W)ᵀ + bias, with x of shape [8, 2048, 1024], the weight W
  and the 0/1 mask of shape [4096, 1024], the bias of length 4096.

  The kernel merges x's batch and sequence axes into 16384 rows, and on a 4 × 16 grid computes one 1024 × 1024
  block of the output per point: it multiplies the weight block by the mask block entry by entry, narrows both
  operands to bfloat16, contracts over the 1024 input features with a float32 accumulator starting at zero, and
  adds the bias; the blocks tile the [16384, 4096] output, which is reshaped back to [8, 2048, 4096]. The
  reference multiplies the mask by the weight, contracts x's last axis against it in one product, and adds the
  broadcast bias.

  Over the extended reals, where a change of float format is the identity and every operation is exact, both
  compute, at every (b, s, o),

      (Σ_k x[b, s, k] · (W[o, k] · mask[o, k])) + bias[o],        k < 1024

  (MaskedLinear.lean's `layer`). The kernel's side: one stored block read at an entry (Body.lean), the blocks
  assembled into the region's output (Region.lean), the reshapes around the region (KernelRun.lean). The
  reference's side (Reference.lean) differs only in the order of the two factors W[o, k] and mask[o, k], and
  multiplication of extended reals is commutative. Tiling, the order of summation and the zero accumulator change
  nothing, and no finiteness of the inputs is used: the precondition is never opened.

  The three frames are the generated ones (the reference's is its generated run with the result dropped), and
  the idealization rewrote no operation, so that conjunct is `True`.
-/
import proofs.«152041_j25769803815_1_alg».proof.Defs
import proofs.«152041_j25769803815_1_alg».proof.Proof.Gen.Kernel
import proofs.«152041_j25769803815_1_alg».proof.Proof.Gen.Kernel.Skeleton
import proofs.«152041_j25769803815_1_alg».proof.Proof.Gen.Kernel.Launch
import proofs.«152041_j25769803815_1_alg».proof.Proof.Gen.Kernel.Points
import proofs.«152041_j25769803815_1_alg».proof.Proof.Gen.Kernel.Frame
import proofs.«152041_j25769803815_1_alg».proof.Proof.Gen.KernelIdeal
import proofs.«152041_j25769803815_1_alg».proof.Proof.Gen.KernelIdeal.Skeleton
import proofs.«152041_j25769803815_1_alg».proof.Proof.Gen.KernelIdeal.Launch
import proofs.«152041_j25769803815_1_alg».proof.Proof.Gen.KernelIdeal.Points
import proofs.«152041_j25769803815_1_alg».proof.Proof.Gen.KernelIdeal.Frame
import proofs.«152041_j25769803815_1_alg».proof.Proof.Gen.ReferenceIdeal
import proofs.«152041_j25769803815_1_alg».proof.Proof.Gen.Pre_finite_inputs
import proofs.«152041_j25769803815_1_alg».proof.Proof.Gen.ReferenceIdeal.Run
import proofs.«152041_j25769803815_1_alg».proof.Proof.Gen.ReferenceIdeal.Read
import Idealize.ShloMosaic.Adequacy
import Idealize.ShloMosaic.Init
import proofs.«152041_j25769803815_1_alg».proof.Proof.KernelRun
import proofs.«152041_j25769803815_1_alg».proof.Proof.Reference

noncomputable section

namespace Cert.Proof

open Idealize.ShloMosaic Idealize.ShloMosaic.TcCoe Idealize.SL.Sem

/-- Both idealized programs, from memories that agree on the four arguments, end with the result buffer at the
    layer of those arguments: the kernel by its run read back, the reference by its generated run, whose term is the
    layer up to the order of the mask product. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Layer.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
